-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel

variable [Facts]

def fn {F : FTy → Type} [FloatOps F] (main_arg0 : FVec F S1024x64 .f32) (main_arg1 : FVec F S1024x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S1024x64 : Shape := ⟨2, ![1024, 64]⟩
abbrev S1024x512 : Shape := ⟨2, ![1024, 512]⟩
abbrev S128x64 : Shape := ⟨2, ![128, 64]⟩
abbrev S128x512 : Shape := ⟨2, ![128, 512]⟩
abbrev S512x64 : Shape := ⟨2, ![512, 64]⟩
abbrev S128 : Shape := ⟨1, ![128]⟩
abbrev S128x1 : Shape := ⟨2, ![128, 1]⟩
abbrev S512 : Shape := ⟨1, ![512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x512, .f32⟩
  | .local _ .vmem, ⟨0, _⟩ => ⟨S128x64, .f32⟩
  | .local _ .vmem, ⟨1, _⟩ => ⟨S128x64, .f32⟩
  | .local _ .vmem, ⟨2, _⟩ => ⟨S1024x64, .f32⟩
  | .local _ .vmem, ⟨3, _⟩ => ⟨S128x512, .f32⟩
  | .local _ .vmem, ⟨4, _⟩ => ⟨S128x512, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x64_S128x64_0_0 : ∀ a, (![0, 0] : Fin 2 → Nat) a + S128x64.size a ≤ S128x64.size a
  h_S128x64 : 0 < S128x64.numel
  inb_S1024x64_S512x64_0_0 : ∀ a, (![0, 0] : Fin 2 → Nat) a + S512x64.size a ≤ S1024x64.size a
  h_S512x64 : 0 < S512x64.numel
  inb_S1024x64_S512x64_512_0 : ∀ a, (![512, 0] : Fin 2 → Nat) a + S512x64.size a ≤ S1024x64.size a
  reduces_S128x64_S128 : S128x64.Reduces [1] S128
  shapeCasts_S128_S128x1 : S128.ShapeCasts S128x1
  broadcasts_S128x1_S128x512 : S128x1.Broadcasts S128x512
  reduces_S512x64_S512 : S512x64.Reduces [1] S512
  shapeCasts_S512_S1x512 : S512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  dot_S128x64_S512x64_S128x512_1_1_0_0_n_n_wf : DotDims.WF S128x64 S512x64 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S1024x512.size a
  hwx0_2 : ∀ i : grid0.Coords, EltTy.bits .f32 = 32 ∨ (Rect.block (s := S1024x512) S128x512.size (cc0_transform_2 i) (hinb0_2 i)).WholeWords (EltTy.packing .f32)

variable [Facts₀]

def dot_S128x64_S512x64_S128x512_1_1_0_0_n_n : DotDims S128x64 S512x64 S128x512 where
  lhsContracting := [1]
  rhsContracting := [1]
  lhsNonContracting := [0]
  rhsNonContracting := [0]
  lhsBatch := []
  rhsBatch := []
  wf := dot_S128x64_S512x64_S128x512_1_1_0_0_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S_ : Shape := ⟨0, ![]⟩
abbrev S1024x1024 : Shape := ⟨2, ![1024, 1024]⟩
abbrev S1024x2x512 : Shape := ⟨3, ![1024, 2, 512]⟩
abbrev S1024x512 : Shape := ⟨2, ![1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x1x64, .f32⟩
  | .hbm, ⟨3, _⟩ => ⟨S1x1024x64, .f32⟩
  | .hbm, ⟨4, _⟩ => ⟨S1024x1024x64, .f32⟩
  | .hbm, ⟨5, _⟩ => ⟨S1024x1024x64, .f32⟩
  | .hbm, ⟨6, _⟩ => ⟨S1024x1024x64, .f32⟩
  | .hbm, ⟨7, _⟩ => ⟨S1024x1024x64, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x2x512, .f32⟩
  | .hbm, ⟨12, _⟩ => ⟨S_, .f32⟩
  | .hbm, ⟨13, _⟩ => ⟨S1024x512, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  reducesTo_S1024x1024x64_S1024x1024_d2 : S1024x1024x64.ReducesTo [2] S1024x1024
  h_S_ : 0 < S_.numel
  shapeCasts_S1024x1024_S1024x2x512 : S1024x1024.ShapeCasts S1024x2x512
  reducesTo_S1024x2x512_S1024x512_d1 : S1024x2x512.ReducesTo [1] S1024x512

variable [Facts₀]

class Facts : Prop extends Facts₀ where

variable [Facts]
-- ==== Proof.DistLaw.lean ====
/-
  The distance from a sample to the nearer of a class's two prototypes, one output entry at a time, and the law
  that joins the two ways the programs compute it.

  One side forms each squared distance directly, `∑ₖ (xₖ - pₖ)²`, takes its root, and keeps the smaller of the two
  roots. The other expands the square, `‖x‖² - 2·⟨x, p⟩ + ‖p‖²`, keeps the smaller of the two expanded values,
  clamps it at zero and takes ONE root. On the extended reals the expansion is not an identity (it distributes a
  product over a difference), so the law is stated for rows of REAL entries: there the expansion is the binomial
  formula summed over `k`, each squared distance is a sum of squares and hence non-negative — the clamp does
  nothing —, and the root, being monotone, commutes with the minimum.
-/
import Idealize.ShloMosaic.PureOps.Ideal
import Idealize.ShloMosaic.PureOps.Ideal.Laws

noncomputable section

namespace Cert.NearestProto

open Idealize.ShloMosaic

variable {n : Nat}

/-- The squared Euclidean distance of two rows. -/
def sqDist (x p : Fin n → EReal) : EReal := ∑ k : Fin n, (x k - p k) * (x k - p k)

/-- The distance to the nearer of two prototypes: the smaller of the two roots. -/
def nearer (x pa pb : Fin n → EReal) : EReal := min (Ideal.sqrt (sqDist x pa)) (Ideal.sqrt (sqDist x pb))

/-- The squared distance with the square expanded: `‖x‖² - two·⟨x, p⟩ + ‖p‖²`, grouped as the body groups it. -/
def expanded (two : EReal) (x p : Fin n → EReal) : EReal :=
  ((∑ k : Fin n, x k * x k) - two * ∑ k : Fin n, x k * p k) + ∑ k : Fin n, p k * p k

/-- One root of the smaller expanded value, clamped below at `zero`. -/
def nearerExpanded (two zero : EReal) (x pa pb : Fin n → EReal) : EReal :=
  Ideal.sqrt (max (min (expanded two x pa) (expanded two x pb)) zero)

/-- A finite sum of reals, seen in the extended reals, is the sum of the images. -/
theorem coe_sum (f : Fin n → ℝ) : ∑ k : Fin n, ((f k : ℝ) : EReal) = ((∑ k : Fin n, f k : ℝ) : EReal) := by
  refine Finset.induction_on (Finset.univ : Finset (Fin n)) (by simp) ?_
  intro a s ha ih
  rw [Finset.sum_insert ha, Finset.sum_insert ha, ih, EReal.coe_add]

/-- The binomial formula, summed: over the reals the expanded form is the sum of squared differences. -/
theorem expand_real (x p : Fin n → ℝ) :
    ((∑ k : Fin n, x k * x k) - 2 * ∑ k : Fin n, x k * p k) + ∑ k : Fin n, p k * p k
      = ∑ k : Fin n, (x k - p k) * (x k - p k) := by
  rw [Finset.mul_sum, ← Finset.sum_sub_distrib, ← Finset.sum_add_distrib]
  exact Finset.sum_congr rfl fun k _ => by ring

/-- A sum of squares of reals is non-negative. -/
theorem sumSq_nonneg (x p : Fin n → ℝ) : 0 ≤ ∑ k : Fin n, (x k - p k) * (x k - p k) :=
  Finset.sum_nonneg fun k _ => mul_self_nonneg _

/-- On rows of reals the squared distance is the real sum of squared differences. -/
theorem sqDist_coe (x p : Fin n → ℝ) :
    sqDist (fun k => ((x k : ℝ) : EReal)) (fun k => ((p k : ℝ) : EReal))
      = ((∑ k : Fin n, (x k - p k) * (x k - p k) : ℝ) : EReal) := by
  unfold sqDist
  simp only [← EReal.coe_sub, ← EReal.coe_mul, coe_sum]

/-- On rows of reals, with the scale the real `2`, so is the expanded form. -/
theorem expanded_coe (x p : Fin n → ℝ) :
    expanded ((2 : ℝ) : EReal) (fun k => ((x k : ℝ) : EReal)) (fun k => ((p k : ℝ) : EReal))
      = ((∑ k : Fin n, (x k - p k) * (x k - p k) : ℝ) : EReal) := by
  unfold expanded
  simp only [← EReal.coe_mul, coe_sum, ← EReal.coe_sub, ← EReal.coe_add]
  rw [expand_real]

/-- The root of a non-negative real, taken in the extended reals. -/
theorem sqrt_coe_of_nonneg {r : ℝ} (h : 0 ≤ r) : Ideal.sqrt ((r : ℝ) : EReal) = ((Real.sqrt r : ℝ) : EReal) := by
  rw [Ideal.sqrt_coe, if_neg (not_lt.mpr h)]

/-- THE LAW: for rows of reals, one root of the clamped smaller expanded value is the smaller of the two roots. -/
theorem nearerExpanded_eq_nearer (x pa pb : Fin n → ℝ) :
    nearerExpanded ((2 : ℝ) : EReal) 0 (fun k => ((x k : ℝ) : EReal)) (fun k => ((pa k : ℝ) : EReal)) (fun k => ((pb k : ℝ) : EReal))
      = nearer (fun k => ((x k : ℝ) : EReal)) (fun k => ((pa k : ℝ) : EReal)) (fun k => ((pb k : ℝ) : EReal)) := by
  unfold nearerExpanded nearer
  rw [expanded_coe, expanded_coe, sqDist_coe, sqDist_coe]
  have ha := sumSq_nonneg x pa
  have hb := sumSq_nonneg x pb
  generalize (∑ k : Fin n, (x k - pa k) * (x k - pa k)) = a at ha ⊢
  generalize (∑ k : Fin n, (x k - pb k) * (x k - pb k)) = b at hb ⊢
  have hm : 0 ≤ min a b := le_min ha hb
  rw [← (EReal.coe_strictMono.monotone.map_min : ((min a b : ℝ) : EReal) = min (a : EReal) (b : EReal)),
    max_eq_left (by exact_mod_cast hm : (0 : EReal) ≤ ((min a b : ℝ) : EReal)),
    sqrt_coe_of_nonneg hm, sqrt_coe_of_nonneg ha, sqrt_coe_of_nonneg hb,
    ← (EReal.coe_strictMono.monotone.map_min : ((min (Real.sqrt a) (Real.sqrt b) : ℝ) : EReal) = min _ _)]
  exact congrArg _ (Real.sqrt_monotone.map_min)

end Cert.NearestProto

end
-- ==== Proof.Spec.lean ====
/-
  The result both programs are proved to compute, as ONE function of the two argument arrays, index by index.

  `x` holds 1024 samples of 64 features; `protos` holds 1024 prototypes of 64 features, two per class: class `c`'s first
  prototype is row `c`, its second is row `512 + c`. Entry `(b, c)` of the result is the Euclidean distance from
  sample `b` to the nearer of class `c`'s two prototypes.
-/
import proofs.«153319_g86114094284878_cont_sun_m_1021_3_alg».proof.Proof.DistLaw
import Idealize.ShloMosaic.Lib.ValueIdx

noncomputable section

namespace Cert.NearestProto

open Idealize.ShloMosaic Idealize.ShloMosaic.ValueIdx

/-- Row `r` of an array of 64-entry rows. -/
abbrev rowOf {R : Nat} (a : (⟨2, ![R, 64]⟩ : Shape).Idx → EReal) (r : Fin R) : Fin 64 → EReal := fun k => a (ix2 r k)

/-- The row of class `c`'s first prototype. -/
abbrev protoA (c : Fin 512) : Fin 1024 := ⟨c.val, by have := c.isLt; omega⟩

/-- The row of class `c`'s second prototype. -/
abbrev protoB (c : Fin 512) : Fin 1024 := ⟨512 + c.val, by have := c.isLt; omega⟩

/-- Entry `(b, c)`: the distance from sample `b` to the nearer of class `c`'s two prototypes. -/
def G (x protos : (⟨2, ![1024, 64]⟩ : Shape).Idx → EReal) : (⟨2, ![1024, 512]⟩ : Shape).Idx → EReal :=
  fun i => nearer (rowOf x (i 0)) (rowOf protos (protoA (i 1))) (rowOf protos (protoB (i 1)))

theorem G_apply (x protos : (⟨2, ![1024, 64]⟩ : Shape).Idx → EReal) (b : Fin 1024) (c : Fin 512) :
    G x protos (ix2 b c) = nearer (rowOf x b) (rowOf protos (protoA c)) (rowOf protos (protoB c)) := rfl

end Cert.NearestProto

end
-- ==== Proof.RefEntry.lean ====
/-
  The reference, read at an index: entry `(b, c)` of its result is the distance from sample `b` to the nearer of
  class `c`'s two prototypes.

  The reference forms all 1024 × 1024 distances `√(0 + ∑ₖ (x[b,k] - protos[r,k])²)`, views the 1024 columns as
  2 × 512 (row-major: column `r` is `(r / 512, r % 512)`, so prototype `p` of class `c` is column `p·512 + c`), and
  takes the minimum over the axis of extent 2 starting from `+∞`, which the minimum absorbs.
-/
import proofs.«153319_g86114094284878_cont_sun_m_1021_3_alg».proof.Proof.Gen.ReferenceIdeal.Read
import proofs.«153319_g86114094284878_cont_sun_m_1021_3_alg».proof.Proof.Spec

noncomputable section

namespace Cert.NearestProto.Ref

open Cert.ReferenceIdeal Cert.ReferenceIdeal.Gen Cert.ReferenceIdeal.Read
open Idealize.ShloMosaic Idealize.ShloMosaic.ValueIdx Cert.NearestProto

/-- A fold of a commutative, associative operation over two indices. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The pattern of `+∞` denotes the top of the extended reals. -/
theorem ofBits_posInf : Ideal.ofBits .f32 0x7F800000#32 = ⊤ := by
  simp [Ideal.ofBits, Ideal.ieee]

/-- Entry `(b, r)` of the table of all distances: the root of the squared distance of sample `b` and prototype row `r`. -/
theorem dist_entry (x0 x1 : FVec Ideal S1024x64 .f32) (b r : Fin 1024) :
    val_main_v7 (F := Ideal) x0 x1 (ix2 b r) = Ideal.sqrt (sqDist (rowOf x0 b) (rowOf x1 r)) := by
  have i0 : ∀ k : Fin 64, idx_main_v0 (idx_main_v2 (idx_main_v6 (ix2 b r) k)) = ix2 b k := fun k =>
    funext fun a => Fin.ext (by match a with | ⟨0, _⟩ => rfl | ⟨1, _⟩ => rfl)
  have i1 : ∀ k : Fin 64, idx_main_v1 (idx_main_v3 (idx_main_v6 (ix2 b r) k)) = ix2 r k := fun k =>
    funext fun a => Fin.ext (by match a with | ⟨0, _⟩ => rfl | ⟨1, _⟩ => rfl)
  rw [val_main_v7_apply, val_main_v6_apply]
  simp only [val_main_v5_apply, val_main_v4_apply, val_main_v2_apply, val_main_v3_apply, val_main_v0_apply,
    val_main_v1_apply, val_main_cst_apply, i0, i1, Ideal.hostUnary_sqrt_def, Ideal.subf_def, Ideal.mulf_def,
    Ideal.ofBits_def, Ideal.ofBits_zero_f32, zero_add]
  rfl

/-- The 2 × 512 view of the columns: entry `(b, p, c)` is column `p·512 + c` of row `b`. -/
theorem view_entry (x0 x1 : FVec Ideal S1024x64 .f32) (b : Fin 1024) (p : Fin 2) (c : Fin 512) (r : Fin 1024)
    (hr : r.val = p.val * 512 + c.val) :
    val_main_v8 (F := Ideal) x0 x1 (ix3 b p c) = val_main_v7 (F := Ideal) x0 x1 (ix2 b r) := by
  rw [val_main_v8_apply]
  refine congrArg _ (funext fun a => Fin.ext ?_)
  have hb := b.isLt; have hp := p.isLt; have hc := c.isLt
  match a with
  | ⟨0, _⟩ => show ((b.val * 2 + p.val) * 512 + c.val) / 1024 = b.val; omega
  | ⟨1, _⟩ => show ((b.val * 2 + p.val) * 512 + c.val) % 1024 = r.val; omega

/-- The reduced index `(b, c)` with coordinate `p` put back on the reduced axis is `(b, p, c)`. -/
theorem lift_ix3 (h : S1024x2x512.Reduces [1] S1024x512) (b : Fin 1024) (c : Fin 512) (p : Fin (S1024x2x512.size 1)) :
    h.lift (ix2 b c) p = ix3 b (⟨p.val, p.isLt⟩ : Fin 2) c := by
  funext a; apply Fin.ext
  fin_cases a <;> rfl

/-- THE REFERENCE AT AN INDEX: the smaller of the two roots. -/
theorem ref_entry (x0 x1 : FVec Ideal S1024x64 .f32) (b : Fin 1024) (c : Fin 512) :
    val_main_v9 (F := Ideal) x0 x1 (ix2 b c) = G x0 x1 (ix2 b c) := by
  have h : S1024x2x512.Reduces [1] S1024x512 := by decide
  unfold val_main_v9
  rw [Host.reduce_eq_fold_single FloatOps.minimumf _ _ reducesTo_S1024x2x512_S1024x512_d1 h h_S_]
  refine (fold_univ_fin2 (FloatOps.minimumf (F := Ideal) (φ := .f32)) _ _).trans ?_
  simp only [Function.comp, lift_ix3, val_main_cst_0_apply, Ideal.ofBits_def, ofBits_posInf, Ideal.minimumf_def, min_top_right]
  rw [G_apply]
  unfold nearer
  refine congrArg₂ min ?_ ?_
  · exact (congrArg (val_main_v8 (F := Ideal) x0 x1) (lift_ix3 h b c _)).trans
      ((view_entry x0 x1 b 0 c (protoA c) (by show c.val = 0 * 512 + c.val; omega)).trans
        (dist_entry x0 x1 b (protoA c)))
  · exact (congrArg (val_main_v8 (F := Ideal) x0 x1) (lift_ix3 h b c _)).trans
      ((view_entry x0 x1 b 1 c (protoB c) (by show 512 + c.val = 1 * 512 + c.val; omega)).trans
        (dist_entry x0 x1 b (protoB c)))

end Cert.NearestProto.Ref

end
-- ==== Proof.BodyEntry.lean ====
/-
  The kernel's body, read at an index of its output block.

  At a grid point the body holds a block of 128 samples `v0` and the two halves of the prototype table, `v1` (each
  class's first prototype) and `v2` (each class's second). Entry `(p, q)` of what it stores is the root of the
  clamped smaller of the two expanded squared distances of sample `p` to class `q`'s prototypes: the sample's squared
  norm is a lane sum broadcast along the columns, each prototype's squared norm a lane sum broadcast along the rows,
  and each inner product one entry of a matrix product contracted over the 64 features.
-/
import proofs.«153319_g86114094284878_cont_sun_m_1021_3_alg».proof.Proof.Gen.KernelIdeal.Skeleton
import proofs.«153319_g86114094284878_cont_sun_m_1021_3_alg».proof.Proof.Spec
import Idealize.ShloMosaic.Lib.Pipeline.Value
import Idealize.ShloMosaic.PureOps.Ideal.Laws

noncomputable section

namespace Cert.NearestProto.Body

open Cert.KernelIdeal Cert.KernelIdeal.Gen
open Idealize.ShloMosaic Idealize.ShloMosaic.ValueIdx Cert.NearestProto

/-! ## The matrix product at an index -/

theorem lhs_0 (i : S128x512.Idx) (q : dot_S128x64_S512x64_S128x512_1_1_0_0_n_n.contr.Idx) : (dot_S128x64_S512x64_S128x512_1_1_0_0_n_n.lhsIdx i q 0).val = (i 0).val := by
  unfold DotDims.lhsIdx
  rw [dif_neg (show ¬(0 : Fin S128x64.rank) ∈ dot_S128x64_S512x64_S128x512_1_1_0_0_n_n.lhsBatch by decide), dif_pos (show (0 : Fin S128x64.rank) ∈ dot_S128x64_S512x64_S128x512_1_1_0_0_n_n.lhsNonContracting by decide)]
  rfl
theorem lhs_1 (i : S128x512.Idx) (q : dot_S128x64_S512x64_S128x512_1_1_0_0_n_n.contr.Idx) : (dot_S128x64_S512x64_S128x512_1_1_0_0_n_n.lhsIdx i q 1).val = (q ⟨0, by decide⟩).val :=
  dot_S128x64_S512x64_S128x512_1_1_0_0_n_n.lhsIdx_val_of_single rfl i q
theorem rhs_0 (i : S128x512.Idx) (q : dot_S128x64_S512x64_S128x512_1_1_0_0_n_n.contr.Idx) : (dot_S128x64_S512x64_S128x512_1_1_0_0_n_n.rhsIdx i q 0).val = (i 1).val := by
  unfold DotDims.rhsIdx
  rw [dif_neg (show ¬(0 : Fin S512x64.rank) ∈ dot_S128x64_S512x64_S128x512_1_1_0_0_n_n.rhsBatch by decide), dif_pos (show (0 : Fin S512x64.rank) ∈ dot_S128x64_S512x64_S128x512_1_1_0_0_n_n.rhsNonContracting by decide)]
  rfl
theorem rhs_1 (i : S128x512.Idx) (q : dot_S128x64_S512x64_S128x512_1_1_0_0_n_n.contr.Idx) : (dot_S128x64_S512x64_S128x512_1_1_0_0_n_n.rhsIdx i q 1).val = (q ⟨0, by decide⟩).val :=
  dot_S128x64_S512x64_S128x512_1_1_0_0_n_n.rhsIdx_val_of_single rfl i q

/-- Entry `(p, q)` of the product of the samples with the transposed prototypes, into a zero accumulator, is the inner
    product of sample `p` and prototype `q` over the 64 features. -/
theorem innerProd_entry (lhs : FVec Ideal S128x64 .f32) (rhs : FVec Ideal S512x64 .f32) (p : Fin 128) (q : Fin 512) :
    matmul dot_S128x64_S512x64_S128x512_1_1_0_0_n_n none lhs rhs (constant S128x512 .f32 0x00000000#32) (ix2 p q)
      = ∑ k : Fin 64, lhs (ix2 p k) * rhs (ix2 q k) := by
  simp only [matmul]
  rw [Ideal.matmul_constant_zero_apply, ← Equiv.sum_comp (contrEquiv1 dot_S128x64_S512x64_S128x512_1_1_0_0_n_n 64 rfl rfl).symm]
  refine Finset.sum_congr rfl fun k _ => ?_
  have hk := contrEquiv1_symm_val dot_S128x64_S512x64_S128x512_1_1_0_0_n_n 64 rfl rfl k
  have el : dot_S128x64_S512x64_S128x512_1_1_0_0_n_n.lhsIdx (ix2 p q) ((contrEquiv1 dot_S128x64_S512x64_S128x512_1_1_0_0_n_n 64 rfl rfl).symm k) = ix2 p k := funext fun a => Fin.ext (by
    match a with
    | ⟨0, _⟩ => exact lhs_0 _ _
    | ⟨1, _⟩ => exact (lhs_1 _ _).trans hk)
  have er : dot_S128x64_S512x64_S128x512_1_1_0_0_n_n.rhsIdx (ix2 p q) ((contrEquiv1 dot_S128x64_S512x64_S128x512_1_1_0_0_n_n 64 rfl rfl).symm k) = ix2 q k := funext fun a => Fin.ext (by
    match a with
    | ⟨0, _⟩ => exact rhs_0 _ _
    | ⟨1, _⟩ => exact (rhs_1 _ _).trans hk)
  rw [el, er]

/-! ## The lane sums and their broadcasts -/

/-- A lane sum over the 64 features of an array of `R` rows, at row `r`. -/
theorem laneSum_entry {R : Nat} (v : FVec Ideal ⟨2, ![R, 64]⟩ .f32) (h : (⟨2, ![R, 64]⟩ : Shape).Reduces [1] ⟨1, ![R]⟩)
    (hφ : FKind.Formats .f32) (hacc : (0x00000000#32 : BitVec 32) = FKind.add.neutral .f32 hφ) (r : Fin R) :
    multiReduction .add [1] ⟨1, ![R]⟩ v 0x00000000#32 h hφ hacc (ix1 r) = ∑ k : Fin 64, v (ix2 r k) := by
  refine (Ideal.multiReduction_add_single v 0x00000000#32 h hφ hacc (ix1 r)).trans ?_
  refine Finset.sum_congr rfl fun k _ => congrArg v ?_
  funext a; apply Fin.ext
  fin_cases a <;> rfl

/-- A vector of 128 row values, viewed as a column and broadcast along the 512 columns, read at `(p, q)`, is value `p`. -/
theorem colBroadcast_entry (v : FVec Ideal S128 .f32) (p : Fin 128) (q : Fin 512) :
    broadcastTo S128x512 (shapeCast S128x1 v shapeCasts_S128_S128x1) broadcasts_S128x1_S128x512 (ix2 p q) = v (ix1 p) := by
  refine (broadcastTo_apply _ broadcasts_S128x1_S128x512 (ix2 p q) (ix2 p (0 : Fin 1)) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
  · exact shapeCast_apply v shapeCasts_S128_S128x1 (ix2 p (0 : Fin 1)) (ix1 p)
      (by rw [Shape.rowMajor_val_one, Shape.rowMajor_val_two]; show p.val = p.val * 1 + 0; omega)

/-- A vector of 512 column values, viewed as a row and broadcast along the 128 rows, read at `(p, q)`, is value `q`. -/
theorem rowBroadcast_entry (v : FVec Ideal S512 .f32) (p : Fin 128) (q : Fin 512) :
    broadcastTo S128x512 (shapeCast S1x512 v shapeCasts_S512_S1x512) broadcasts_S1x512_S128x512 (ix2 p q) = v (ix1 q) := by
  refine (broadcastTo_apply _ broadcasts_S1x512_S128x512 (ix2 p q) (ix2 (0 : Fin 1) q) (fun a => ?_)).trans ?_
  · match a with
    | ⟨0, _⟩ => show 0 = if (1 : Nat) = 1 then 0 else p.val; rw [if_pos rfl]
    | ⟨1, _⟩ => show q.val = if (512 : Nat) = 1 then 0 else q.val; rw [if_neg (by decide)]
  · exact shapeCast_apply v shapeCasts_S512_S1x512 (ix2 (0 : Fin 1) q) (ix1 q)
      (by rw [Shape.rowMajor_val_one, Shape.rowMajor_val_two]; show q.val = 0 * 512 + q.val; omega)

/-! ## The stored value at an index -/

theorem sqrt_apply {s : Shape} (a : FVec Ideal s .f32) (i : s.Idx) : sqrt a i = Ideal.sqrt (a i) := rfl

/-- THE BODY AT AN INDEX: entry `(p, q)` of the stored value is the root of the clamped smaller expanded squared
    distance of sample `p` to the two prototypes of class `q`, with the scale and the clamp the constants the body spells. -/
theorem pay_entry (v0 : Vec Ideal S128x64 .f32) (v1 v2 : Vec Ideal S512x64 .f32) (p : Fin 128) (q : Fin 512) :
    k0_pay1 v0 v1 v2 (ix2 p q)
      = nearerExpanded (Ideal.ofBits .f32 0x40000000#32) (Ideal.ofBits .f32 0x00000000#32) (rowOf v0 p) (rowOf v1 q) (rowOf v2 q) := by
  unfold k0_pay1
  simp only [sqrt_apply, maximumf_apply, minimumf_apply, addf_apply, subf_apply, mulf_apply, broadcast_apply]
  rw [colBroadcast_entry, rowBroadcast_entry, rowBroadcast_entry, innerProd_entry, innerProd_entry]
  unfold nearerExpanded expanded
  refine congrArg Ideal.sqrt (congrArg₂ max (congrArg₂ min ?_ ?_) rfl)
  · refine congrArg₂ (· + ·) (congrArg₂ (· - ·) ?_ rfl) ?_
    · exact laneSum_entry (mulf v0 v0) _ _ _ p
    · exact laneSum_entry (mulf v1 v1) _ _ _ q
  · refine congrArg₂ (· + ·) (congrArg₂ (· - ·) ?_ rfl) ?_
    · exact laneSum_entry (mulf v0 v0) _ _ _ p
    · exact laneSum_entry (mulf v2 v2) _ _ _ q

end Cert.NearestProto.Body

end
-- ==== Proof.EntryLaw.lean ====
/-
  The law at one output entry, over whole arrays of extended reals whose entries are all real: the expanded, clamped,
  single-root form the kernel's body computes at `(b, c)` — with its scale the pattern of `2.0` and its clamp the
  pattern of `0.0` — is entry `(b, c)` of the result.
-/
import proofs.«153319_g86114094284878_cont_sun_m_1021_3_alg».proof.Proof.Spec

noncomputable section

namespace Cert.NearestProto

open Idealize.ShloMosaic Idealize.ShloMosaic.ValueIdx

/-- The pattern of `2.0` denotes the real `2`. -/
theorem ofBits_two : Ideal.ofBits .f32 0x40000000#32 = ((2 : ℝ) : EReal) := by
  simp [Ideal.ofBits, Ideal.ieee, -EReal.coe_mul]; norm_num

/-- With every entry of both arrays real, the expanded form at sample `b` and class `c` is the result's entry. -/
theorem entry_law (X P : (⟨2, ![1024, 64]⟩ : Shape).Idx → EReal)
    (hX : ∀ i, ∃ r : ℝ, X i = (r : EReal)) (hP : ∀ i, ∃ r : ℝ, P i = (r : EReal)) (b : Fin 1024) (c : Fin 512) :
    nearerExpanded (Ideal.ofBits .f32 0x40000000#32) (Ideal.ofBits .f32 0x00000000#32)
        (rowOf X b) (rowOf P (protoA c)) (rowOf P (protoB c))
      = G X P (ix2 b c) := by
  choose xr hxr using hX
  choose pr hpr using hP
  have eX : rowOf X b = fun k => ((xr (ix2 b k) : ℝ) : EReal) := funext fun k => hxr _
  have eA : rowOf P (protoA c) = fun k => ((pr (ix2 (protoA c) k) : ℝ) : EReal) := funext fun k => hpr _
  have eB : rowOf P (protoB c) = fun k => ((pr (ix2 (protoB c) k) : ℝ) : EReal) := funext fun k => hpr _
  rw [G_apply, eX, eA, eB, ofBits_two, Ideal.ofBits_zero_f32]
  exact nearerExpanded_eq_nearer _ _ _

end Cert.NearestProto

end
-- ==== Proof.Blocks.lean ====
/-
  From what each grid point writes back to the whole output array.

  The grid has 8 points. Point `t` stages rows `128·t … 128·t + 127` of the samples, the WHOLE prototype table, and writes
  back rows `128·t … 128·t + 127` of the output, all 512 columns. Inside the body the first prototypes are rows
  `0 … 511` of the staged table and the second prototypes rows `512 … 1023`. So entry `(p, q)` of the block point `t`
  writes is the result's entry `(128·t + p, q)`; the 8 blocks tile the output's 1024 rows, hence the output array
  after the run is the result everywhere.
-/
import proofs.«153319_g86114094284878_cont_sun_m_1021_3_alg».proof.Proof.Gen.KernelIdeal.Value
import proofs.«153319_g86114094284878_cont_sun_m_1021_3_alg».proof.Proof.BodyEntry
import proofs.«153319_g86114094284878_cont_sun_m_1021_3_alg».proof.Proof.EntryLaw

noncomputable section

namespace Cert.NearestProto.Blocks

open Cert.KernelIdeal Cert.KernelIdeal.Gen Idealize.ShloMosaic Idealize.ShloMosaic.TcCoe Idealize.SL.Sem
open Idealize.ShloMosaic.Pipeline (Dat)
open Idealize.ShloMosaic.ValueIdx Cert.NearestProto

variable (m : (ℓ : Loc nD τ sig) → Buf (Elt Ideal) ℓ) (ρ : Dev nD → PrngReg)

theorem zeroOffsets : (![0, 0] : Fin 2 → Nat) = fun _ => 0 := funext fun a => by fin_cases a <;> rfl

/-- The index maps over the 8 points: the samples' block and the output's block move together down the rows, the
    prototype table's block stays at the origin. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 7
    ∧ win0_2.index t (1 : Fin 2) = 0 :=
  (by decide +kernel : ∀ t : Fin grid0.N, _)

/-- Every one of the 8 row blocks is some point's. -/
theorem idx_onto : ∀ r : Fin 8, ∃ t : Fin cfg0.N, win0_2.index t = ![r.val, 0] :=
  (by decide +kernel : ∀ r : Fin 8, ∃ t : Fin grid0.N, win0_2.index t = ![r.val, 0])

/-- The first prototypes are the staged table's rows `0 … 511`. -/
theorem ld_firstHalf (x1 : Vec Ideal S1024x64 .f32) (q : Fin 512) (k : Fin 64) :
    View.ld x1 r0_1 (ix2 q k) = x1 (ix2 (protoA q) k) := by
  show x1 (r0_1.idx (ix2 q k)) = _
  refine congrArg x1 (funext fun a => Fin.ext ?_)
  match a with
  | ⟨0, _⟩ => show 0 + 1 * q.val = q.val; omega
  | ⟨1, _⟩ => show 0 + 1 * k.val = k.val; omega

/-- The second prototypes are the staged table's rows `512 … 1023`. -/
theorem ld_secondHalf (x1 : Vec Ideal S1024x64 .f32) (q : Fin 512) (k : Fin 64) :
    View.ld x1 r0_2 (ix2 q k) = x1 (ix2 (protoB q) k) := by
  show x1 (r0_2.idx (ix2 q k)) = _
  refine congrArg x1 (funext fun a => Fin.ext ?_)
  match a with
  | ⟨0, _⟩ => show 512 + 1 * q.val = 512 + q.val; omega
  | ⟨1, _⟩ => show 0 + 1 * k.val = k.val; omega

theorem flushed_eq (c : Dev nD) (t : Fin cfg0.N)
    (hx : ∀ i, ∃ r : ℝ, V m c main_arg0 i = (r : EReal)) (hp : ∀ i, ∃ r : ℝ, V m c main_arg1 i = (r : EReal)) :
    (dats m 0 c).flushed 2 t = ((cfg0.win 2).blk t).view.read (Elt Ideal) (G (V m c main_arg0) (V m c main_arg1)) := by
  rw [Cert.KernelIdeal.Value.flushed2]
  unfold out0_2
  rw [View.canon_unit_zero zeroOffsets]
  obtain ⟨e0, e1, e2, e3, e4, e5⟩ := idx_facts t
  funext j
  obtain ⟨p, q, rfl⟩ : ∃ (p : Fin 128) (q : Fin 512), j = ix2 p q := ⟨j 0, j 1, eq_ix2 j⟩
  show k0_pay1 (View.ld (iblk m c 0 t) r0_0) (View.ld (iblk m c 1 t) r0_1) (View.ld (iblk m c 1 t) r0_2) (ix2 p q)
    = G (V m c main_arg0) (V m c main_arg1) (((cfg0.win 2).blk t).view.emb (ix2 p q))
  refine (Body.pay_entry _ _ _ p q).trans ?_
  have hrow : win0_2.index t (0 : Fin 2) * 128 + p.val < 1024 := by have := p.isLt; omega
  -- row `p` of the staged samples is row `128·t + p` of the sample array
  have ea : rowOf (View.ld (iblk m c 0 t) r0_0) p
      = rowOf (V m c main_arg0) ⟨win0_2.index t (0 : Fin 2) * 128 + p.val, hrow⟩ := by
    funext k
    show V m c main_arg0 (((cfg0.win 0).blk t).view.emb (r0_0.idx (ix2 p k))) = V m c main_arg0 (ix2 _ k)
    refine congrArg _ (funext fun a => Fin.ext ?_)
    match a with
    | ⟨0, _⟩ => show win0_0.index t (0 : Fin 2) * 128 + 1 * (0 + 1 * p.val) = win0_2.index t (0 : Fin 2) * 128 + p.val; omega
    | ⟨1, _⟩ => show win0_0.index t (1 : Fin 2) * 64 + 1 * (0 + 1 * k.val) = k.val; omega
  -- the staged prototype table is the whole prototype array
  have hblk : ∀ (r : Fin 1024) (k : Fin 64), iblk m c 1 t (ix2 r k) = V m c main_arg1 (ix2 r k) := by
    intro r k
    show V m c main_arg1 (((cfg0.win 1).blk t).view.emb (ix2 r k)) = _
    refine congrArg _ (funext fun a => Fin.ext ?_)
    match a with
    | ⟨0, _⟩ => show win0_1.index t (0 : Fin 2) * 1024 + 1 * r.val = r.val; omega
    | ⟨1, _⟩ => show win0_1.index t (1 : Fin 2) * 64 + 1 * k.val = k.val; omega
  have eb : rowOf (View.ld (iblk m c 1 t) r0_1) q = rowOf (V m c main_arg1) (protoA q) :=
    funext fun k => (ld_firstHalf (iblk m c 1 t) q k).trans (hblk (protoA q) k)
  have ec : rowOf (View.ld (iblk m c 1 t) r0_2) q = rowOf (V m c main_arg1) (protoB q) :=
    funext fun k => (ld_secondHalf (iblk m c 1 t) q k).trans (hblk (protoB q) k)
  -- entry `(p, q)` of the output's block is entry `(128·t + p, q)` of the output array
  have ed : ((cfg0.win 2).blk t).view.emb (ix2 p q) = ix2 ⟨win0_2.index t (0 : Fin 2) * 128 + p.val, hrow⟩ q := by
    funext a; apply Fin.ext
    match a with
    | ⟨0, _⟩ => show win0_2.index t (0 : Fin 2) * 128 + 1 * p.val = win0_2.index t (0 : Fin 2) * 128 + p.val; omega
    | ⟨1, _⟩ => show win0_2.index t (1 : Fin 2) * 512 + 1 * q.val = q.val; omega
  rw [ea, eb, ec]
  exact (entry_law (V m c main_arg0) (V m c main_arg1) hx hp _ q).trans (congrArg _ ed.symm)

/-- An index of the output array is in point `t`'s block iff each coordinate is in the block's range on its axis. -/
theorem mem_blk (t : Fin cfg0.N) (i : S1024x512.Idx) :
    i ∈ ((cfg0.win 2).blk t).view.set ↔ ∀ a : Fin 2, win0_2.index t a * S128x512.size a ≤ (i a).val
      ∧ (i a).val < win0_2.index t a * S128x512.size a + S128x512.size a := by
  show i ∈ ((View.whole main_v0).slice (win0_2.rect t)).set ↔ _
  rw [View.set_slice_whole, Rect.mem_set_unit]
  exact Iff.rfl

/-- The 8 blocks tile the output: row `r` is in the block of the point whose block index is `r / 128`. -/
theorem cover (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 512 ≤ (i 1).val ∧ (i 1).val < win0_2.index t (1 : Fin 2) * 512 + 512; omega

/-- THE OUTPUT ARRAY after the run is the result of the argument arrays, when all their entries are real. -/
theorem final (c : Dev nD)
    (hx : ∀ i, ∃ r : ℝ, V m c main_arg0 i = (r : EReal)) (hp : ∀ i, ∃ r : ℝ, V m c main_arg1 i = (r : EReal)) :
    (dats m 0 c).arrAt 2 cfg0.N = G (V m c main_arg0) (V m c main_arg1) :=
  (dats m 0 c).arrAt_eq_of_cover 2 _ (fun t _ => flushed_eq m c t hx hp) cover

/-- The kernel's run, read: the output array ends at the result of the argument arrays, which are unchanged. -/
theorem run (hfin : ∀ c : Dev nD, (∀ i, ∃ r : ℝ, V m c main_arg0 i = (r : EReal)) ∧ (∀ i, ∃ r : ℝ, V m c main_arg1 i = (r : EReal))) :
    θ_run defs (onTc (τ := τ) (main (F := Ideal))) ⟨m, fun _ => 0, ρ⟩ fun r => ∀ c : Dev nD,
      r.2.mem ((c : Thread nD τ).loc main_v0) = G (V m c main_arg0) (V m c main_arg1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩)
    (Cert.KernelIdeal.Value.run_blocks m ρ)

end Cert.NearestProto.Blocks

end
-- ==== Proof.Finite.lean ====
/-
  From the precondition to real entries. The precondition says, for each of the two argument arrays, that every entry's
  absolute value is strictly below `+∞` (a conjunction of two reductions by `and` over all 1024 × 64 comparisons). An
  extended real whose absolute value `max x (-x)` is below the top is neither infinity, hence a real number.
-/
import proofs.«153319_g86114094284878_cont_sun_m_1021_3_alg».proof.Defs
import proofs.«153319_g86114094284878_cont_sun_m_1021_3_alg».proof.Proof.Gen.Pre_finite_inputs
import Idealize.ShloMosaic.Lib.ReduceAll
import Idealize.ShloMosaic.Lib.ValueIdx
import Idealize.ShloMosaic.PureOps.Ideal.Laws

noncomputable section

namespace Cert.NearestProto.Finite

open Idealize.ShloMosaic Idealize.ShloMosaic.ValueIdx Cert.Pre_finite_inputs Cert.Pre_finite_inputs.Gen

instance : Subsingleton S_.Idx := ⟨fun a b => funext fun d => d.elim0⟩

theorem real_of_lt_inf (x : EReal)
    (h : Ideal.cmp .olt (max x (-x)) (Ideal.ofBits .f32 0x7F800000#32) = 1#1) :
    ∃ r : ℝ, x = (r : EReal) := by
  induction x using EReal.rec with
  | bot => exfalso; revert h; simp [Ideal.cmp, Ideal.ofBits, Ideal.ieee]
  | coe r => exact ⟨r, rfl⟩
  | top => exfalso; revert h; simp [Ideal.cmp, Ideal.ofBits, Ideal.ieee]

theorem finite_of_pre (a0 a1 : FVec Ideal S1024x64 .f32) (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  have h1 := IntOp.andi_eq_one.mp h0
  exact ⟨fun i => real_of_lt_inf (a0 i) (Host.reduce_andi_all _ _ _ _ ix0 h1.1 i),
    fun i => real_of_lt_inf (a1 i) (Host.reduce_andi_all _ _ _ _ ix0 h1.2 i)⟩

end Cert.NearestProto.Finite

end
-- ==== Proof.lean ====
/-
  Nearest-prototype distances: for 1024 samples and 512 classes of two prototypes each (64 features), entry `(b, c)` of
  the result is the Euclidean distance from sample `b` to the nearer of class `c`'s two prototypes.

  The reference forms every squared distance `∑ₖ (x[b,k] - p[r,k])²`, takes its root, and keeps the smaller root of each
  class's pair. The kernel expands the square — `‖x‖² - 2·⟨x, p⟩ + ‖p‖²`, the inner products as a matrix product, the
  norms as lane sums —, keeps the smaller expanded value, clamps it at zero and takes one root. Over the extended reals
  the expansion distributes a product over a difference, which fails at infinities, so the precondition — every input
  entry finite, hence real — is used: on reals the expansion is the binomial formula, a sum of squares is non-negative
  so the clamp does nothing, and the monotone root commutes with the minimum (Proof/DistLaw.lean, Proof/EntryLaw.lean).

  Proof/RefEntry.lean reads the reference's result at an index; Proof/BodyEntry.lean reads the kernel body's stored
  value at an index of its block; Proof/Blocks.lean places the 8 row blocks in the output array; Proof/Finite.lean
  turns the precondition into real entries. The three programs' runs and frames are the generated modules'. The
  idealization rewrote nothing, so its conjunct is `True`.
-/
import proofs.«153319_g86114094284878_cont_sun_m_1021_3_alg».proof.Defs
import proofs.«153319_g86114094284878_cont_sun_m_1021_3_alg».proof.Proof.Gen.Kernel
import proofs.«153319_g86114094284878_cont_sun_m_1021_3_alg».proof.Proof.Gen.Kernel.Skeleton
import proofs.«153319_g86114094284878_cont_sun_m_1021_3_alg».proof.Proof.Gen.Kernel.Launch
import proofs.«153319_g86114094284878_cont_sun_m_1021_3_alg».proof.Proof.Gen.Kernel.Points
import proofs.«153319_g86114094284878_cont_sun_m_1021_3_alg».proof.Proof.Gen.Kernel.Frame
import proofs.«153319_g86114094284878_cont_sun_m_1021_3_alg».proof.Proof.Gen.KernelIdeal
import proofs.«153319_g86114094284878_cont_sun_m_1021_3_alg».proof.Proof.Gen.KernelIdeal.Skeleton
import proofs.«153319_g86114094284878_cont_sun_m_1021_3_alg».proof.Proof.Gen.KernelIdeal.Launch
import proofs.«153319_g86114094284878_cont_sun_m_1021_3_alg».proof.Proof.Gen.KernelIdeal.Points
import proofs.«153319_g86114094284878_cont_sun_m_1021_3_alg».proof.Proof.Gen.KernelIdeal.Frame
import proofs.«153319_g86114094284878_cont_sun_m_1021_3_alg».proof.Proof.Gen.ReferenceIdeal
import proofs.«153319_g86114094284878_cont_sun_m_1021_3_alg».proof.Proof.Gen.Pre_finite_inputs
import proofs.«153319_g86114094284878_cont_sun_m_1021_3_alg».proof.Proof.Gen.KernelIdeal.Value
import proofs.«153319_g86114094284878_cont_sun_m_1021_3_alg».proof.Proof.Gen.ReferenceIdeal.Run
import proofs.«153319_g86114094284878_cont_sun_m_1021_3_alg».proof.Proof.Gen.ReferenceIdeal.Read
import proofs.«153319_g86114094284878_cont_sun_m_1021_3_alg».proof.Proof.RefEntry
import proofs.«153319_g86114094284878_cont_sun_m_1021_3_alg».proof.Proof.Blocks
import proofs.«153319_g86114094284878_cont_sun_m_1021_3_alg».proof.Proof.Finite
import Idealize.ShloMosaic.Adequacy
import Idealize.ShloMosaic.Init

noncomputable section

namespace Cert.Proof

open Idealize.ShloMosaic Idealize.ShloMosaic.ValueIdx Idealize.SL.Sem Cert.NearestProto

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the result `G` of the (agreeing, finite) argument arrays: the kernel's by its blocks, the
    reference's index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Blocks.run m ρ (fun c => Finite.finite_of_pre _ _ (hpre c)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v9_eq]
  funext i
  obtain ⟨b, q, rfl⟩ : ∃ (b : Fin 1024) (q : Fin 512), i = ix2 b q := ⟨i 0, i 1, eq_ix2 i⟩
  exact Ref.ref_entry _ _ b q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
